-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096x4096 .f32) (main_arg2 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S16384x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .f32 = 32 ∨ (Rect.block (s := S16384x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x4096.size a
  hwx0_3 : ∀ i : grid0.Coords, EltTy.bits .f32 = 32 ∨ (Rect.block (s := S16384x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S1x4096, .f32⟩
  | .hbm, ⟨5, _⟩ => ⟨S16384x4096, .f32⟩
  | .hbm, ⟨6, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S16384x4096_S4096x4096_S16384x4096_1_1_0_0_n_n_wf : DotDims.WF S16384x4096 S4096x4096 S16384x4096 [1] [1] [0] [0] [] []

variable [Facts₀]

def dot_S16384x4096_S4096x4096_S16384x4096_1_1_0_0_n_n : DotDims S16384x4096 S4096x4096 S16384x4096 where
  lhsContracting := [1]
  rhsContracting := [1]
  lhsNonContracting := [0]
  rhsNonContracting := [0]
  lhsBatch := []
  rhsBatch := []
  wf := dot_S16384x4096_S4096x4096_S16384x4096_1_1_0_0_n_n_wf

class Facts : Prop extends Facts₀ where

variable [Facts]
-- ==== Proof.AffineMap.lean ====
/-
  The affine map `y = x · Wᵀ + b` over the extended reals, as ONE function of the three arrays
  (x : [16384, 4096], W : [4096, 4096], b : [4096]), index by index:

      y[n, o] = (∑ c < 4096, x[n, c] · W[o, c]) + b[o].

  A contraction over the 4096 columns is the sum of the four contractions over consecutive blocks of 1024
  columns (column `1024·k + c` is column `c` of block `k`): a finite sum re-indexed along
  `Fin 4 × Fin 1024 ≃ Fin 4096`. Addition on the extended reals is commutative and associative, so this
  needs no finiteness of the entries. `partialDot … q` is the sum of the first `q` block contractions,
  accumulated from zero one block at a time; after four blocks it is the whole contraction.
-/
import Idealize.ShloMosaic.PureOps.Ideal
import Idealize.ShloMosaic.Lib.ValueIdx
import Mathlib.Algebra.BigOperators.Fin
import Mathlib.Logic.Equiv.Fin.Basic

noncomputable section

open scoped BigOperators

namespace Cert.AffineMap

open Idealize.ShloMosaic Idealize.ShloMosaic.ValueIdx

/-- Indices of the activations and of the result, of the weights, and of the bias. -/
abbrev XIdx : Type := (⟨2, ![16384, 4096]⟩ : Shape).Idx
abbrev WIdx : Type := (⟨2, ![4096, 4096]⟩ : Shape).Idx
abbrev BIdx : Type := (⟨1, ![4096]⟩ : Shape).Idx

variable (x : XIdx → EReal) (w : WIdx → EReal) (b : BIdx → EReal)

/-- Column `c` of the `k`-th block of 1024 columns. -/
def blockCol (k : Fin 4) (c : Fin 1024) : Fin 4096 := ⟨1024 * k.val + c.val, by omega⟩

/-- Row `r` of the `p`-th block of 1024 rows. -/
def blockRow (p : Fin 16) (r : Fin 1024) : Fin 16384 := ⟨1024 * p.val + r.val, by omega⟩

/-- Row `n` of `x` against row `o` of `W`, over all 4096 columns. -/
def rowDot (n : Fin 16384) (o : Fin 4096) : EReal :=
  ∑ c : Fin 4096, x (ix2 n c) * w (ix2 o c)

/-- The same over the `k`-th block of 1024 columns only. -/
def blockDot (n : Fin 16384) (o : Fin 4096) (k : Fin 4) : EReal :=
  ∑ c : Fin 1024, x (ix2 n (blockCol k c)) * w (ix2 o (blockCol k c))

/-- The first `q` block contractions, accumulated from zero. -/
def partialDot (n : Fin 16384) (o : Fin 4096) : ℕ → EReal
  | 0 => 0
  | q + 1 => partialDot n o q + (if h : q < 4 then blockDot x w n o ⟨q, h⟩ else 0)

/-- The affine map, index by index. -/
def affine : XIdx → EReal := fun i => rowDot x w (i 0) (i 1) + b (ix1 (i 1))

theorem partialDot_zero (n : Fin 16384) (o : Fin 4096) : partialDot x w n o 0 = 0 := rfl

theorem partialDot_succ (n : Fin 16384) (o : Fin 4096) (q : ℕ) (h : q < 4) :
    partialDot x w n o (q + 1) = partialDot x w n o q + blockDot x w n o ⟨q, h⟩ := by
  show partialDot x w n o q + (if h : q < 4 then blockDot x w n o ⟨q, h⟩ else 0) = _
  rw [dif_pos h]

/-- The whole contraction is the sum of the four block contractions. -/
theorem rowDot_eq_sum_blockDot (n : Fin 16384) (o : Fin 4096) :
    rowDot x w n o = ∑ k : Fin 4, blockDot x w n o k := by
  unfold rowDot blockDot
  rw [← Fintype.sum_prod_type' (f := fun k c => x (ix2 n (blockCol k c)) * w (ix2 o (blockCol k c)))]
  refine (Fintype.sum_equiv (finProdFinEquiv (m := 4) (n := 1024)) _ _ fun p => ?_).symm
  have e : (finProdFinEquiv p : Fin 4096) = blockCol p.1 p.2 :=
    Fin.ext (by simp only [finProdFinEquiv_apply_val, blockCol]; omega)
  rw [e]

/-- After four blocks the accumulator holds the whole contraction. -/
theorem partialDot_four (n : Fin 16384) (o : Fin 4096) : partialDot x w n o 4 = rowDot x w n o := by
  rw [rowDot_eq_sum_blockDot, Fin.sum_univ_four,
    partialDot_succ x w n o 3 (by omega), partialDot_succ x w n o 2 (by omega),
    partialDot_succ x w n o 1 (by omega), partialDot_succ x w n o 0 (by omega), partialDot_zero, zero_add]
  rfl

end Cert.AffineMap

end
-- ==== Proof.RefAffine.lean ====
/-
  The reference program's result, read index by index at the ideal instance, is the affine map: its
  contraction over the second axis of both operands reads `x` at `(n, c)` and `W` at `(o, c)` for every
  column `c`, and its two broadcasts read the bias at the result's second coordinate.
-/
import proofs.«178093_j31164282700431_1_alg».proof.Proof.Gen.ReferenceIdeal.Read
import proofs.«178093_j31164282700431_1_alg».proof.Proof.AffineMap

noncomputable section

open scoped BigOperators

namespace Cert.ReferenceIdeal.RefAffine

open Cert.ReferenceIdeal Cert.ReferenceIdeal.Read Idealize.ShloMosaic Idealize.ShloMosaic.ValueIdx Cert.AffineMap

/-- The reference's last stage is `x · Wᵀ + b`. -/
theorem val_eq_affine (x0 : (⟨S16384x4096, .f32⟩ : BufTy).Contents (Elt Ideal))
    (x1 : (⟨S4096x4096, .f32⟩ : BufTy).Contents (Elt Ideal)) (x2 : (⟨S4096, .f32⟩ : BufTy).Contents (Elt Ideal)) :
    val_main_v3 (F := Ideal) x0 x1 x2 = affine x0 x1 x2 := by
  funext i
  rw [val_main_v3_apply, val_main_v0_apply, val_main_v2_apply, val_main_v1_apply]
  have el : ∀ k : Fin 4096, lidx_main_v0 i k = ix2 (i 0) k :=
    fun k => funext fun a => match a with | ⟨0, _⟩ => rfl | ⟨1, _⟩ => rfl
  have er : ∀ k : Fin 4096, ridx_main_v0 i k = ix2 (i 1) k :=
    fun k => funext fun a => match a with | ⟨0, _⟩ => rfl | ⟨1, _⟩ => rfl
  have eb : idx_main_v1 (idx_main_v2 i) = ix1 (i 1) :=
    funext fun a => match a with | ⟨0, _⟩ => rfl
  simp only [el, er, eb]
  rfl

end Cert.ReferenceIdeal.RefAffine

end
-- ==== Proof.Pieces.lean ====
/-
  What one grid point leaves behind, as values, at any float instance.

  The accumulator block `acc` (1024 × 1024) lives across the four points of one output block. A point that is
  not the first of its four leaves `step a b acc`, the block product of its activation block `a` and weight
  block `b` added to what the point before left; the first point first stores the zero block and reads it
  back, so it leaves `step a b zero`. The last point also stores the output block: the accumulator it has
  just left, plus the bias row `v` repeated down the rows.
-/
import proofs.«178093_j31164282700431_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic
open Idealize.SL.Sem

variable {F : FTy → Type} [FloatOps F]

/-- Every store and load of the body starts at the origin of its buffer. -/
theorem origin : (![0, 0] : Fin 2 → Nat) = fun _ => 0 := funext fun a => by fin_cases a <;> rfl

/-- A middle point (neither first nor last of its four) leaves the accumulator one block product further. -/
theorem acc_middle (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 x1 : Vec F S1024x1024 .f32) (x2 : Vec F S1x1024 .f32) (xs0 : Vec F S1024x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero origin]
  simp only [View.readAt_eq_ld, harg3.read_unread, harg4.read_unread, harg7.read_unread,
    View.ld_unit_zero (S := S1024x1024) origin]

/-- The first point of four resets the accumulator and leaves the first block product over zero. -/
theorem acc_first (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 x1 : Vec F S1024x1024 .f32) (x2 : Vec F S1x1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, harg3.read_unread, harg4.read_unread,
    View.ld_unit_zero (S := S1024x1024) origin]

/-- The last point of four leaves the accumulator one block product further, like a middle point, … -/
theorem acc_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 x1 : Vec F S1024x1024 .f32) (x2 : Vec F S1x1024 .f32) (xs0 : Vec F S1024x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero origin]
  simp only [View.readAt_eq_ld, harg3.read_unread, harg4.read_unread, harg7.read_unread,
    View.ld_unit_zero (S := S1024x1024) origin]

/-- … and stores the output block: that accumulator plus the bias row. -/
theorem out_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 x1 : Vec F S1024x1024 .f32) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero origin]
  simp only [View.readAt_eq_ld, harg3.read_unread, harg4.read_unread, harg5.read_unread, harg7.read_unread,
    View.ld_unit_zero (S := S1024x1024) origin, View.ld_unit_zero (S := S1x1024) origin,
    View.readCov_unit_zero (S := S1024x1024) _ origin]

end Cert.KernelIdeal.Pieces

end
-- ==== Proof.BlockProduct.lean ====
/-
  The three values a grid point computes, read at one entry `(r, s)` of the 1024 × 1024 block, over the
  extended reals (where the change of float format in front of the product is the identity):

    the reset block                       is  0 everywhere;
    the accumulate step of blocks a, b    is  acc[r, s] + ∑ c < 1024, a[r, c] · b[s, c]
                                              (both operands are contracted along their second axis);
    the output of accumulator a, bias v   is  a[r, s] + v[0, s].
-/
import proofs.«178093_j31164282700431_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.BlockProduct

open Cert.KernelIdeal Cert.KernelIdeal.Gen Idealize.ShloMosaic Idealize.ShloMosaic.ValueIdx

/-! ## Where the block product reads its operands -/

/-- The left operand is read in the output's row … -/
theorem lhs_row (j : S1024x1024.Idx) (q : dot_S1024x1024_S1024x1024_S1024x1024_1_1_0_0_n_n.contr.Idx) :
    (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- … at the contracted column; -/
theorem lhs_col (j : S1024x1024.Idx) (q : dot_S1024x1024_S1024x1024_S1024x1024_1_1_0_0_n_n.contr.Idx) :
    (dot_S1024x1024_S1024x1024_S1024x1024_1_1_0_0_n_n.lhsIdx j q 1).val = (q ⟨0, by decide⟩).val :=
  dot_S1024x1024_S1024x1024_S1024x1024_1_1_0_0_n_n.lhsIdx_val_of_single rfl j q
/-- the right operand in the row named by the output's COLUMN … -/
theorem rhs_row (j : S1024x1024.Idx) (q : dot_S1024x1024_S1024x1024_S1024x1024_1_1_0_0_n_n.contr.Idx) :
    (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- … at the contracted column. -/
theorem rhs_col (j : S1024x1024.Idx) (q : dot_S1024x1024_S1024x1024_S1024x1024_1_1_0_0_n_n.contr.Idx) :
    (dot_S1024x1024_S1024x1024_S1024x1024_1_1_0_0_n_n.rhsIdx j q 1).val = (q ⟨0, by decide⟩).val :=
  dot_S1024x1024_S1024x1024_S1024x1024_1_1_0_0_n_n.rhsIdx_val_of_single rfl j q

/-! ## The three payloads at an entry -/

/-- The reset block is zero. -/
theorem reset_apply (j : S1024x1024.Idx) : k0_pay1 (F := Ideal) j = 0 := by
  unfold k0_pay1
  rw [shapeCast_self]
  exact Ideal.ofBits_zero_f32

/-- The accumulate step adds the block product's entry: row `r` of `a` against row `s` of `b`. -/
theorem step_apply (a b acc : Vec Ideal S1024x1024 .f32) (r s : Fin 1024) :
    k0_pay2 (F := Ideal) a b acc (ix2 r s) = acc (ix2 r s) + ∑ cc : Fin 1024, a (ix2 r cc) * b (ix2 s cc) := by
  unfold k0_pay2
  rw [shapeCast_self, addf_apply]
  simp only [matmul]
  rw [Ideal.matmul_constant_zero_apply,
    ← Equiv.sum_comp (contrEquiv1 dot_S1024x1024_S1024x1024_S1024x1024_1_1_0_0_n_n 1024 rfl rfl).symm]
  refine congrArg (acc (ix2 r s) + ·) (Finset.sum_congr rfl fun k _ => ?_)
  have hk := contrEquiv1_symm_val dot_S1024x1024_S1024x1024_S1024x1024_1_1_0_0_n_n 1024 rfl rfl k
  have el : dot_S1024x1024_S1024x1024_S1024x1024_1_1_0_0_n_n.lhsIdx (ix2 r s) ((contrEquiv1 dot_S1024x1024_S1024x1024_S1024x1024_1_1_0_0_n_n 1024 rfl rfl).symm k) = ix2 r k := funext fun ax => Fin.ext (by
    match ax with
    | ⟨0, _⟩ => exact lhs_row _ _
    | ⟨1, _⟩ => exact (lhs_col _ _).trans hk)
  have er : dot_S1024x1024_S1024x1024_S1024x1024_1_1_0_0_n_n.rhsIdx (ix2 r s) ((contrEquiv1 dot_S1024x1024_S1024x1024_S1024x1024_1_1_0_0_n_n 1024 rfl rfl).symm k) = ix2 s k := funext fun ax => Fin.ext (by
    match ax with
    | ⟨0, _⟩ => exact rhs_row _ _
    | ⟨1, _⟩ => exact (rhs_col _ _).trans hk)
  rw [truncf_apply, truncf_apply, el, er]

/-- The output adds the bias row's entry in the same column. -/
theorem bias_apply (a : Vec Ideal S1024x1024 .f32) (v : Vec Ideal S1x1024 .f32) (r s : Fin 1024) :
    k0_pay3 (F := Ideal) a v (ix2 r s) = a (ix2 r s) + v (ix2 (0 : Fin 1) s) := by
  unfold k0_pay3
  rw [addf_apply, shapeCast_self]
  refine congrArg (a (ix2 r s) + ·) ?_
  exact broadcastTo_apply v broadcasts_S1x1024_S1024x1024 (ix2 r s) (ix2 (0 : Fin 1) s) (fun ax => by
    match ax with
    | ⟨0, _⟩ => show (0 : ℕ) = if (1 : Nat) = 1 then 0 else _; rw [if_pos rfl]
    | ⟨1, _⟩ => show s.val = if (1024 : Nat) = 1 then 0 else s.val; rw [if_neg (by decide)])

end Cert.KernelIdeal.BlockProduct

end
-- ==== Proof.Accumulate.lean ====
/-
  The accumulator across the grid, over the extended reals.

  The grid is 16 × 4 × 4 with the contraction axis fastest, so point number `n` works on row block `n / 16`,
  output-column block `n / 4 % 4` and contraction block `n % 4`. Its activation block is rows
  `1024·(n/16) + r`, columns `1024·(n%4) + c` of `x`; its weight block rows `1024·(n/4%4) + s`, the same
  columns, of `W`; its bias block columns `1024·(n/4%4) + s` of the bias row.

  After point `n` the accumulator's entry `(r, s)` is the contraction of row `1024·(n/16) + r` of `x` with row
  `1024·(n/4%4) + s` of `W` over the first `n % 4 + 1` blocks of columns: at a point with `n % 4 = 0` the
  accumulator restarts from zero, and every later point of the four adds its block to what the point before
  left (same row block, same output-column block). At `n % 4 = 3` this is the whole contraction, and the
  output block stored there adds the bias entry.
-/
import proofs.«178093_j31164282700431_1_alg».proof.Proof.Gen.KernelIdeal.Frame
import proofs.«178093_j31164282700431_1_alg».proof.Proof.AffineMap
import proofs.«178093_j31164282700431_1_alg».proof.Proof.Pieces
import proofs.«178093_j31164282700431_1_alg».proof.Proof.BlockProduct

noncomputable section

open scoped BigOperators

namespace Cert.KernelIdeal.Accumulate

open Cert.KernelIdeal Cert.KernelIdeal.Gen Idealize.ShloMosaic Idealize.ShloMosaic.TcCoe Idealize.ShloMosaic.ValueIdx
open Idealize.SL.Sem Cert.AffineMap

variable (m : (ℓ : Loc nD τ sig) → Buf (Elt Ideal) ℓ)

/-! ## The arrays and the blocks, at their literal types -/

/-- The activations, the weights and the bias row as the region finds them. -/
abbrev xarr (c : Dev nD) : Vec Ideal S16384x4096 .f32 := V m c main_arg0
abbrev warr (c : Dev nD) : Vec Ideal S4096x4096 .f32 := V m c main_arg1
abbrev brow (c : Dev nD) : Vec Ideal S1x4096 .f32 := V m c main_v0

/-- Point `t`'s activation block, weight block and bias block. -/
abbrev xblk (c : Dev nD) (t : Fin cfg0.N) : Vec Ideal S1024x1024 .f32 := iblk m c 0 t
abbrev wblk (c : Dev nD) (t : Fin cfg0.N) : Vec Ideal S1024x1024 .f32 := iblk m c 1 t
abbrev bblk (c : Dev nD) (t : Fin cfg0.N) : Vec Ideal S1x1024 .f32 := iblk m c 2 t

/-- The three block numbers of point number `n`. -/
def rowBlock (n : ℕ) : Fin 16 := ⟨n / 16 % 16, Nat.mod_lt _ (by decide)⟩
def colBlock (n : ℕ) : Fin 4 := ⟨n / 4 % 4, Nat.mod_lt _ (by decide)⟩
def depthBlock (n : ℕ) : Fin 4 := ⟨n % 4, Nat.mod_lt _ (by decide)⟩

theorem lt_points (t : Fin cfg0.N) : t.val < 256 := lt_of_lt_of_eq t.isLt (show cfg0.N = 256 from N_0)

/-- The printed index maps, decided over the grid. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-! ## The blocks read at an entry -/

theorem xblk_apply (c : Dev nD) (t : Fin cfg0.N) (r cc : Fin 1024) :
    xblk m c t (ix2 r cc) = xarr m c (ix2 (blockRow (rowBlock t.val) r) (blockCol (depthBlock t.val) cc)) := by
  show V m c main_arg0 (((cfg0.win 0).blk t).view.emb (ix2 r cc)) = V m c main_arg0 _
  refine congrArg _ (funext fun a => Fin.ext ?_)
  obtain ⟨e0, e1, -⟩ := idx_facts t
  have hN := lt_points t
  match a with
  | ⟨0, _⟩ => show win0_0.index t (0 : Fin 2) * 1024 + 1 * r.val = 1024 * (t.val / 16 % 16) + r.val; omega
  | ⟨1, _⟩ => show win0_0.index t (1 : Fin 2) * 1024 + 1 * cc.val = 1024 * (t.val % 4) + cc.val; omega

theorem wblk_apply (c : Dev nD) (t : Fin cfg0.N) (s cc : Fin 1024) :
    wblk m c t (ix2 s cc) = warr m c (ix2 (blockCol (colBlock t.val) s) (blockCol (depthBlock t.val) cc)) := by
  show V m c main_arg1 (((cfg0.win 1).blk t).view.emb (ix2 s cc)) = V m c main_arg1 _
  refine congrArg _ (funext fun a => Fin.ext ?_)
  obtain ⟨-, -, e0, e1, -⟩ := idx_facts t
  match a with
  | ⟨0, _⟩ => show win0_1.index t (0 : Fin 2) * 1024 + 1 * s.val = 1024 * (t.val / 4 % 4) + s.val; omega
  | ⟨1, _⟩ => show win0_1.index t (1 : Fin 2) * 1024 + 1 * cc.val = 1024 * (t.val % 4) + cc.val; omega

theorem bblk_apply (c : Dev nD) (t : Fin cfg0.N) (s : Fin 1024) :
    bblk m c t (ix2 (0 : Fin 1) s) = brow m c (ix2 (0 : Fin 1) (blockCol (colBlock t.val) s)) := by
  show V m c main_v0 (((cfg0.win 2).blk t).view.emb (ix2 (0 : Fin 1) s)) = V m c main_v0 _
  refine congrArg _ (funext fun a => Fin.ext ?_)
  obtain ⟨-, -, -, -, e0, e1, -⟩ := idx_facts t
  match a with
  | ⟨0, _⟩ => show win0_2.index t (0 : Fin 2) * 1 + 1 * 0 = 0; omega
  | ⟨1, _⟩ => show win0_2.index t (1 : Fin 2) * 1024 + 1 * s.val = 1024 * (t.val / 4 % 4) + s.val; omega

/-! ## One point's effect on the accumulator -/

/-- This point's block contraction at entry `(r, s)` is block `n % 4` of the whole contraction. -/
theorem blockSum_eq (c : Dev nD) (t : Fin cfg0.N) (r s : Fin 1024) :
    ∑ cc : Fin 1024, xblk m c t (ix2 r cc) * wblk m c t (ix2 s cc)
      = blockDot (xarr m c) (warr m c) (blockRow (rowBlock t.val) r) (blockCol (colBlock t.val) s) (depthBlock t.val) := by
  unfold blockDot
  exact Finset.sum_congr rfl fun cc _ => by rw [xblk_apply, wblk_apply]

/-- At the first point of four the accumulator restarts: zero plus this point's block. -/
theorem acc_at_first (c : Dev nD) (t : Fin cfg0.N) (h0 : t.val % 4 = 0) (r s : Fin 1024) :
    (outsAt0 m c t.val t.isLt).2 (ix2 r s) = 0 + ∑ cc : Fin 1024, xblk m c t (ix2 r cc) * wblk m c t (ix2 s cc) := by
  have h1 : ¬t.val % 4 = 3 := by omega
  rw [outsAt0_A m c t h0 h1]
  dsimp only
  refine (congrFun (Pieces.acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (xblk m c t) (wblk m c t) (bblk m c t)) (ix2 r s)).trans ?_
  rw [BlockProduct.step_apply, BlockProduct.reset_apply]

/-- At every other point it adds this point's block to what the point before left. -/
theorem acc_at_later (c : Dev nD) (t : Fin cfg0.N) (h0 : ¬t.val % 4 = 0) (r s : Fin 1024) :
    (outsAt0 m c t.val t.isLt).2 (ix2 r s)
      = (outsAt0 m c (t.val - 1) (Nat.lt_of_le_of_lt (Nat.sub_le _ _) t.isLt)).2 (ix2 r s)
        + ∑ cc : Fin 1024, xblk m c t (ix2 r cc) * wblk m c t (ix2 s cc) := by
  by_cases h1 : t.val % 4 = 3
  · rw [outsAt0_C m c t h0 h1]
    dsimp only
    refine (congrFun (Pieces.acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (wblk m c t) (bblk m c t) (outsAt0 m c (t.val - 1) (Nat.lt_of_le_of_lt (Nat.sub_le _ _) t.isLt)).2) (ix2 r s)).trans ?_
    rw [BlockProduct.step_apply]
  · rw [outsAt0_B m c t h0 h1]
    dsimp only
    refine (congrFun (Pieces.acc_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (xblk m c t) (wblk m c t) (bblk m c t) (outsAt0 m c (t.val - 1) (Nat.lt_of_le_of_lt (Nat.sub_le _ _) t.isLt)).2) (ix2 r s)).trans ?_
    rw [BlockProduct.step_apply]

/-- At the last point of four the output block is the accumulator just left plus the bias entry. -/
theorem out_at_last (c : Dev nD) (t : Fin cfg0.N) (h1 : t.val % 4 = 3) (r s : Fin 1024) :
    (outsAt0 m c t.val t.isLt).1 (ix2 r s) = (outsAt0 m c t.val t.isLt).2 (ix2 r s) + bblk m c t (ix2 (0 : Fin 1) s) := by
  have h0 : ¬t.val % 4 = 0 := by omega
  rw [outsAt0_C m c t h0 h1]
  dsimp only
  rw [Pieces.acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (wblk m c t) (bblk m c t) (outsAt0 m c (t.val - 1) (Nat.lt_of_le_of_lt (Nat.sub_le _ _) t.isLt)).2]
  refine (congrFun (Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (wblk m c t) (bblk m c t) (outsAt0 m c (t.val - 1) (Nat.lt_of_le_of_lt (Nat.sub_le _ _) t.isLt)).2) (ix2 r s)).trans ?_
  rw [BlockProduct.bias_apply]

/-! ## The accumulator after every point -/

/-- After point `n`: the contraction over the first `n % 4 + 1` blocks of columns. -/
theorem acc_eq (c : Dev nD) : ∀ (n : ℕ) (h : n < cfg0.N) (r s : Fin 1024),
    (outsAt0 m c n h).2 (ix2 r s)
      = partialDot (xarr m c) (warr m c) (blockRow (rowBlock n) r) (blockCol (colBlock n) s) (n % 4 + 1) := by
  intro n
  induction n with
  | zero =>
    intro h r s
    rw [acc_at_first m c ⟨0, h⟩ rfl r s, blockSum_eq]
    show _ = partialDot _ _ _ _ (0 + 1)
    rw [partialDot_succ _ _ _ _ 0 (by omega), partialDot_zero]
    rfl
  | succ n ih =>
    intro h r s
    have hN : n + 1 < 256 := lt_points ⟨n + 1, h⟩
    by_cases h0 : (n + 1) % 4 = 0
    · rw [acc_at_first m c ⟨n + 1, h⟩ h0 r s, blockSum_eq]
      have e : (n + 1) % 4 + 1 = 0 + 1 := by omega
      rw [e, partialDot_succ _ _ _ _ 0 (by omega), partialDot_zero]
      have ed : depthBlock (n + 1) = ⟨0, by omega⟩ := Fin.ext (by show (n + 1) % 4 = 0; exact h0)
      show _ + blockDot _ _ _ _ (depthBlock (n + 1)) = _
      rw [ed]
    · rw [acc_at_later m c ⟨n + 1, h⟩ h0 r s, blockSum_eq]
      show (outsAt0 m c n _).2 (ix2 r s) + _ = _
      rw [ih (Nat.lt_of_succ_lt h) r s]
      have er : rowBlock n = rowBlock (n + 1) := Fin.ext (by show n / 16 % 16 = (n + 1) / 16 % 16; omega)
      have ec : colBlock n = colBlock (n + 1) := Fin.ext (by show n / 4 % 4 = (n + 1) / 4 % 4; omega)
      have hq : (n + 1) % 4 < 4 := Nat.mod_lt _ (by decide)
      have e : n % 4 + 1 = (n + 1) % 4 := by omega
      rw [er, ec, e, partialDot_succ _ _ _ _ ((n + 1) % 4) hq]
      rfl

end Cert.KernelIdeal.Accumulate

end
-- ==== Proof.Result.lean ====
/-
  The result array of the kernel, over the extended reals, is the affine map of the three arguments.

  The output is written back at the last of every four points only. There the block stored is, entry by
  entry, the whole contraction (the accumulator after four blocks of columns) plus the bias entry of the
  same column — the bias row the kernel reads being the bias vector laid out as one row. That is block
  `(n / 16, n / 4 % 4)` of the affine map; and the 16 × 4 such blocks tile the 16384 × 4096 array: entry
  `(a, b)` lies in the block written at point `16·(a / 1024) + 4·(b / 1024) + 3`.
-/
import proofs.«178093_j31164282700431_1_alg».proof.Proof.Gen.KernelIdeal.Value
import proofs.«178093_j31164282700431_1_alg».proof.Proof.Accumulate
import Idealize.ShloMosaic.Lib.Pipeline.Value
import Idealize.ShloMosaic.Lib.StableHlo.Run

noncomputable section

open scoped BigOperators

namespace Cert.KernelIdeal.Result

open Cert.KernelIdeal Cert.KernelIdeal.Gen Idealize.ShloMosaic Idealize.ShloMosaic.TcCoe Idealize.ShloMosaic.ValueIdx
open Idealize.SL.Sem Cert.AffineMap Cert.KernelIdeal.Accumulate
open Idealize.ShloMosaic.Pipeline (Dat)

variable (m : (ℓ : Loc nD τ sig) → Buf (Elt Ideal) ℓ) (ρ : Dev nD → PrngReg)

/-- The bias vector as launched. -/
abbrev bvec (c : Dev nD) : Vec Ideal S4096 .f32 := m ((c : Thread nD τ).loc main_arg2)

/-- The bias row the region finds is the bias vector laid out as one row. -/
theorem brow_apply (c : Dev nD) (o : Fin 4096) : brow m c (ix2 (0 : Fin 1) o) = bvec m c (ix1 o) := by
  have e : (V m c main_v0 : S1x4096.Idx → EReal) = shapeCast S1x4096 (bvec m c) shapeCasts_S4096_S1x4096 := by
    dsimp only [Gen.V, Gen.hostOps0]; after_results; rfl
  show (V m c main_v0 : S1x4096.Idx → EReal) (ix2 (0 : Fin 1) o) = _
  rw [e]
  refine (shapeCast_addUnit_apply ![4096] (bvec m c) shapeCasts_S4096_S1x4096 (ix2 (0 : Fin 1) o)).trans ?_
  exact congrArg (bvec m c) (funext fun a => match a with | ⟨0, _⟩ => rfl)

/-- What the result array ends holding: the affine map of the arrays as the region finds them. -/
abbrev result (c : Dev nD) : Vec Ideal S16384x4096 .f32 := affine (xarr m c) (warr m c) (bvec m c)

/-- The output block of a last point, entry by entry. -/
theorem out_entry (c : Dev nD) (t : Fin cfg0.N) (h1 : t.val % 4 = 3) (r s : Fin 1024) :
    (outsAt0 m c t.val t.isLt).1 (ix2 r s)
      = result m c (ix2 (blockRow (rowBlock t.val) r) (blockCol (colBlock t.val) s)) := by
  rw [out_at_last m c t h1 r s, acc_eq m c t.val t.isLt r s, bblk_apply, brow_apply]
  have e : t.val % 4 + 1 = 4 := by omega
  rw [e, partialDot_four]
  rfl

/-- WHAT A LAST POINT WRITES BACK is its block of the affine map. -/
theorem flushed_eq (c : Dev nD) (t : Fin cfg0.N) (hf : (cfg0.win 3).flush t = true) :
    (dats m 0 c).flushed 3 t = ((cfg0.win 3).blk t).view.read (Elt Ideal) (result m c) := by
  have h1 : t.val % 4 = 3 := (flush0_3 t).mp hf
  rw [Value.flushed3]
  have entry : ∀ y : S1024x1024.Idx,
      (outsAt0 m c t.val t.isLt).1 y = result m c (((cfg0.win 3).blk t).view.emb y) := by
    intro y
    obtain ⟨r, s, rfl⟩ : ∃ (r s : Fin 1024), y = ix2 r s := ⟨y 0, y 1, eq_ix2 y⟩
    rw [out_entry m c t h1]
    refine congrArg (result m c) (funext fun a => Fin.ext ?_)
    obtain ⟨-, -, -, -, -, -, e0, e1⟩ := idx_facts t
    have hN := lt_points t
    match a with
    | ⟨0, _⟩ => show 1024 * (t.val / 16 % 16) + r.val = win0_3.index t (0 : Fin 2) * 1024 + 1 * r.val; omega
    | ⟨1, _⟩ => show 1024 * (t.val / 4 % 4) + s.val = win0_3.index t (1 : Fin 2) * 1024 + 1 * s.val; omega
  funext j
  exact entry j

/-- An index of the array is in point `t`'s block iff each coordinate is in the block's range on its axis. -/
theorem mem_blk (t : Fin cfg0.N) (i : S16384x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- Every entry of the array is in the block some last point writes back. -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hlt : 16 * ((i 0).val / 1024) + 4 * ((i 1).val / 1024) + 3 < cfg0.N := by
    rw [show cfg0.N = 256 from N_0]; omega
  obtain ⟨-, -, -, -, -, -, e0, e1⟩ := idx_facts ⟨_, hlt⟩
  have e0' : win0_3.index ⟨_, hlt⟩ (0 : Fin 2) = (16 * ((i 0).val / 1024) + 4 * ((i 1).val / 1024) + 3) / 16 := e0
  have e1' : win0_3.index ⟨_, hlt⟩ (1 : Fin 2) = (16 * ((i 0).val / 1024) + 4 * ((i 1).val / 1024) + 3) / 4 % 4 := e1
  refine ⟨⟨_, hlt⟩, (flush0_3 _).mpr (by show (16 * ((i 0).val / 1024) + 4 * ((i 1).val / 1024) + 3) % 4 = 3; omega), ?_⟩
  rw [mem_blk]
  intro a
  match a with
  | ⟨0, _⟩ => show win0_3.index ⟨_, hlt⟩ (0 : Fin 2) * 1024 ≤ (i 0).val ∧ (i 0).val < win0_3.index ⟨_, hlt⟩ (0 : Fin 2) * 1024 + 1024; omega
  | ⟨1, _⟩ => show win0_3.index ⟨_, hlt⟩ (1 : Fin 2) * 1024 ≤ (i 1).val ∧ (i 1).val < win0_3.index ⟨_, hlt⟩ (1 : Fin 2) * 1024 + 1024; omega

/-- THE ARRAY after the run is the affine map. -/
theorem final (c : Dev nD) : (dats m 0 c).arrAt 3 cfg0.N = result m c :=
  (dats m 0 c).arrAt_eq_of_cover 3 (result m c) (fun t hf => flushed_eq m c t hf) covered

/-- The kernel's run, read: the result array at the affine map of the arguments as launched, the arguments unchanged. -/
theorem run : θ_run defs (onTc (τ := τ) (main (F := Ideal))) ⟨m, fun _ => 0, ρ⟩ fun r => ∀ c : Dev nD,
      r.2.mem ((c : Thread nD τ).loc main_v1)
        = affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by
      show affine (V m c main_arg0) (V m c main_arg1) _ = _
      rw [V_main_arg0, V_main_arg1])), (h c).2⟩)
    (Value.run_blocks m ρ)

end Cert.KernelIdeal.Result

end
-- ==== Proof.lean ====
/-
  A dense layer `y = x · Wᵀ + b` (x : [16384, 4096], W : [4096, 4096], b : [4096]) computed in 1024 × 1024
  tiles on a 16 × 4 × 4 grid, the contraction axis innermost: for each output tile an accumulator is reset to
  zero, receives the four block products `x[i, k] · W[j, k]ᵀ` one after the other, and at the fourth the tile
  is stored with the bias row added. Against the one-line reference `einsum('nc,oc->no', x, W) + b`.

  Over the extended reals (a change of float format is the identity) both are

      y[n, o] = (∑ c < 4096, x[n, c] · W[o, c]) + b[o].

  The only law between the two sides is that a sum over 4096 columns is the sum of its four consecutive
  blocks of 1024 (Proof/AffineMap.lean: a re-indexing of a finite sum in a commutative monoid), so nothing
  is asked of the entries and the precondition is never opened.

  Proof/AffineMap.lean    the affine map as one function of the three arrays; block sums; partial sums
  Proof/RefAffine.lean    the reference's result is that function
  Proof/Pieces.lean       what each kind of grid point leaves in the accumulator and in the output tile
  Proof/BlockProduct.lean those values at one entry: acc + ∑ c, a[r, c] · b[s, c]; acc + bias
  Proof/Accumulate.lean   the tiles read off the arrays; the accumulator after every point, by induction
  Proof/Result.lean       the tile written back is the affine map's; the tiles cover the array; the run
-/
import proofs.«178093_j31164282700431_1_alg».proof.Defs
import proofs.«178093_j31164282700431_1_alg».proof.Proof.Gen.Kernel
import proofs.«178093_j31164282700431_1_alg».proof.Proof.Gen.Kernel.Frame
import proofs.«178093_j31164282700431_1_alg».proof.Proof.Gen.KernelIdeal
import proofs.«178093_j31164282700431_1_alg».proof.Proof.Gen.KernelIdeal.Frame
import proofs.«178093_j31164282700431_1_alg».proof.Proof.Gen.KernelIdeal.Value
import proofs.«178093_j31164282700431_1_alg».proof.Proof.Gen.ReferenceIdeal
import proofs.«178093_j31164282700431_1_alg».proof.Proof.Gen.ReferenceIdeal.Run
import proofs.«178093_j31164282700431_1_alg».proof.Proof.Gen.ReferenceIdeal.Read
import proofs.«178093_j31164282700431_1_alg».proof.Proof.Gen.Pre_finite_inputs
import proofs.«178093_j31164282700431_1_alg».proof.Proof.RefAffine
import proofs.«178093_j31164282700431_1_alg».proof.Proof.Result
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel over the extended reals. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten to read it over the extended reals. -/
theorem preserves : Cert.preserves_Kernel_KernelIdeal := trivial

/-- From memories that agree on `x`, `W` and `b`, both programs end with `x · Wᵀ + b`. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefAffine.val_eq_affine,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
